-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S16x8x512x3 : Shape := ⟨4, ![16, 8, 512, 3]⟩
abbrev S16 : Shape := ⟨1, ![16]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel
  bcast_S_S16x8x512x3 : S_.BroadcastsInDim S16x8x512x3 (![] : Fin 0 → Fin S16x8x512x3.rank)
  reducesTo_S16x8x512x3_S_d0_1_2_3 : S16x8x512x3.ReducesTo [0, 1, 2, 3] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x8x512x3 1) : IVec S_ 1 :=
  let main_c_5 : IVec S_ 1 := constantI S_ 1 1#1
  let main_v17 : IVec S_ 1 := (fun x v => Host.reduce IntOp.andi x v reducesTo_S16x8x512x3_S_d0_1_2_3 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S16x4096x3 .f32) (main_arg1 : FVec F S16x4096x3 .f32) (main_arg2 : FVec F S16x8x512x3 .f32) (main_arg3 : FVec F S16x8x512x3 .f32) (main_arg4 : FVec F S16 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  let main_v9 : FVec F S16x8x512x3 .f32 := Host.absf main_arg2
  let main_cst_2 : FVec F S_ .f32 := constant S_ .f32 0x7F800000#32
  let main_v10 : FVec F S16x8x512x3 .f32 := broadcastInDim S16x8x512x3 ![] bcast_S_S16x8x512x3 main_cst_2
  let main_v11 : IVec S16x8x512x3 1 := cmpf .olt main_v9 main_v10
  let main_c_3 : IVec S_ 1 := constantI S_ 1 1#1
  let main_v12 : IVec S_ 1 := (fun x v => Host.reduce IntOp.andi x v reducesTo_S16x8x512x3_S_d0_1_2_3 h_S_) main_v11 main_c_3
  let main_v13 : IVec S_ 1 := andi main_v8 main_v12
  let main_v14 : FVec F S16x8x512x3 .f32 := Host.absf main_arg3
  let main_cst_4 : FVec F S_ .f32 := constant S_ .f32 0x7F800000#32
  let main_v15 : FVec F S16x8x512x3 .f32 := broadcastInDim S16x8x512x3 ![] bcast_S_S16x8x512x3 main_cst_4
  let main_v16 : IVec S16x8x512x3 1 := cmpf .olt main_v14 main_v15
  fn_part1 (F := F) main_arg4 main_v13 main_v16
-- ==== Kernel.lean ====
abbrev S16x4096x3 : Shape := ⟨3, ![16, 4096, 3]⟩
abbrev S16x8x512x3 : Shape := ⟨4, ![16, 8, 512, 3]⟩
abbrev S16 : Shape := ⟨1, ![16]⟩
abbrev S16x4096 : Shape := ⟨2, ![16, 4096]⟩
abbrev S16x256x3 : Shape := ⟨3, ![16, 256, 3]⟩
abbrev S16x256 : Shape := ⟨2, ![16, 256]⟩
abbrev S16x256x256 : Shape := ⟨3, ![16, 256, 256]⟩
abbrev S16x256x1 : Shape := ⟨3, ![16, 256, 1]⟩
abbrev S16x1x256 : Shape := ⟨3, ![16, 1, 256]⟩
abbrev S_ : Shape := ⟨0, ![]⟩

abbrev nBuf : Space → Nat
  | .hbm => 34
  | .vmem => 7
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x8x512x3, .f32⟩
  | .hbm, ⟨3, _⟩ => ⟨S16x8x512x3, .f32⟩
  | .hbm, ⟨4, _⟩ => ⟨S16, .f32⟩
  | .hbm, ⟨5, _⟩ => ⟨S16x4096, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x4096x3, .f32⟩
  | .hbm, ⟨17, _⟩ => ⟨S16x4096x3, .f32⟩
  | .hbm, ⟨18, _⟩ => ⟨S16x4096x3, .f32⟩
  | .hbm, ⟨19, _⟩ => ⟨S16x4096x3, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S16x256x3, .f32⟩
  | .local _ .vmem, ⟨1, _⟩ => ⟨S16x256x3, .f32⟩
  | .local _ .vmem, ⟨2, _⟩ => ⟨S16x256x3, .f32⟩
  | .local _ .vmem, ⟨3, _⟩ => ⟨S16x256x3, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_cst_7 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x256x3_S16x256x3_0_0_0 : ∀ a, (![0, 0, 0] : Fin 3 → Nat) a + S16x256x3.size a ≤ S16x256x3.size a
  h_S16x256x3 : 0 < S16x256x3.numel
  reduces_S16x256x3_S16x256 : S16x256x3.Reduces [2] S16x256
  bitsLt_bf16_f32 : FTy.bits .bf16 < FTy.bits .f32
  shapeCasts_S16x256_S16x256x1 : S16x256.ShapeCasts S16x256x1
  shapeCasts_S16x256_S16x1x256 : S16x256.ShapeCasts S16x1x256
  broadcasts_S16x256x1_S16x256x256 : S16x256x1.Broadcasts S16x256x256
  broadcasts_S16x1x256_S16x256x256 : S16x1x256.Broadcasts S16x256x256
  reduces_S16x256x256_S16x256 : S16x256x256.Reduces [2] S16x256
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  shapeCasts_S16x8x512x3_S16x4096x3 : S16x8x512x3.ShapeCasts S16x4096x3
  reducesTo_S16x4096x3_S16_d1_2 : S16x4096x3.ReducesTo [1, 2] S16
  dot_S16x256x3_S16x256x3_S16x256x256_2_2_1_1_0_0_wf : DotDims.WF S16x256x3 S16x256x3 S16x256x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x3.size a ≤ S16x4096x3.size a
  hwx0_0 : ∀ i : grid0.Coords, EltTy.bits .f32 = 32 ∨ (Rect.block (s := S16x4096x3) S16x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x3.size a ≤ S16x4096x3.size a
  hwx0_1 : ∀ i : grid0.Coords, EltTy.bits .f32 = 32 ∨ (Rect.block (s := S16x4096x3) S16x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x4096.size a
  hwx0_2 : ∀ i : grid0.Coords, EltTy.bits .f32 = 32 ∨ (Rect.block (s := S16x4096) S16x256.size (cc0_transform_2 i) (hinb0_2 i)).WholeWords (EltTy.packing .f32)

variable [Facts₀]

def dot_S16x256x3_S16x256x3_S16x256x256_2_2_1_1_0_0 : DotDims S16x256x3 S16x256x3 S16x256x256 where
  lhsContracting := [2]
  rhsContracting := [2]
  lhsNonContracting := [1]
  rhsNonContracting := [1]
  lhsBatch := [0]
  rhsBatch := [0]
  wf := dot_S16x256x3_S16x256x3_S16x256x256_2_2_1_1_0_0_wf

abbrev win0_0 : Pipeline.Window sig grid0 :=
  Pipeline.Window.ofSpec (Memref.whole main_arg0) S16x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S16x8x512x3 : Shape := ⟨4, ![16, 8, 512, 3]⟩
abbrev S16 : Shape := ⟨1, ![16]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 51
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x8x512x3, .f32⟩
  | .hbm, ⟨3, _⟩ => ⟨S16x8x512x3, .f32⟩
  | .hbm, ⟨4, _⟩ => ⟨S16, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x3, .f32⟩
  | .hbm, ⟨9, _⟩ => ⟨S_, .f32⟩
  | .hbm, ⟨10, _⟩ => ⟨S16x4096, .f32⟩
  | .hbm, ⟨11, _⟩ => ⟨S16x4096x4096, .f32⟩
  | .hbm, ⟨12, _⟩ => ⟨S16x4096x1, .f32⟩
  | .hbm, ⟨13, _⟩ => ⟨S16x1x4096, .f32⟩
  | .hbm, ⟨14, _⟩ => ⟨S16x4096x4096, .f32⟩
  | .hbm, ⟨15, _⟩ => ⟨S16x4096x4096, .f32⟩
  | .hbm, ⟨16, _⟩ => ⟨S16x4096x4096, .f32⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S16x4096x4096, .f32⟩
  | .hbm, ⟨21, _⟩ => ⟨S_, .f32⟩
  | .hbm, ⟨22, _⟩ => ⟨S16x4096, .f32⟩
  | .hbm, ⟨23, _⟩ => ⟨S_, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16x4096x3, .f32⟩
  | .hbm, ⟨34, _⟩ => ⟨S16x4096x3, .f32⟩
  | .hbm, ⟨35, _⟩ => ⟨S16x4096x3, .f32⟩
  | .hbm, ⟨36, _⟩ => ⟨S16x4096x3, .f32⟩
  | .hbm, ⟨37, _⟩ => ⟨S_, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096_S16_d1 : S16x4096.ReducesTo [1] S16
  bcast_S_S16 : S_.BroadcastsInDim S16 (![] : Fin 0 → Fin S16.rank)
  reducesTo_S16_S_d0 : S16.ReducesTo [0] S_
  shapeCasts_S16x8x512x3_S16x4096x3 : S16x8x512x3.ShapeCasts S16x4096x3
  reducesTo_S16x4096x3_S16_d1_2 : S16x4096x3.ReducesTo [1, 2] S16
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.Pieces.lean ====
/-
  What one run of the kernel body leaves behind, in each of its three situations.

  The body keeps, in a buffer that survives from one grid point to the next, the running minima of the current block of 256
  points of the first cloud. A row of sixteen tiles is swept left to right:
    · at the first tile the minima are reset to the starting value and then updated with the tile;
    · at an inner tile they are updated with the tile;
    · at the last tile they are updated with the tile and the result is copied to the output block.
  In every situation the update is one and the same function of the two input blocks and the previous minima (the stored
  value of the tile module). The lemmas below read that off the stores the run of each situation performs: a store that
  covers the whole buffer determines its contents, and a load after such a store reads the stored value back.
-/
import proofs.«115717_j24790551233440_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a point that is neither the first nor the last of its row of tiles: the running minima become the stored value of the
    two blocks over the previous minima. -/
theorem scratch_B (c : Dev nD) (i : grid0.Coords) (a2 : Memref sig .tc .vmem S16x256x3 .f32) (h2 : a2.IsWhole)
    (a3 : Memref sig .tc .vmem S16x256x3 .f32) (h3 : a3.IsWhole) (a4 : Memref sig .tc .vmem S16x256 .f32) (h4 : a4.IsWhole)
    (a5 : Memref sig .tc .vmem S16x256 .f32) (h5 : a5.IsWhole) (hc0 : ¬cond0_0 i) (hc1 : ¬cond0_1 i)
    (x0 x1 : Vec F S16x256x3 .f32) (xs0 : Vec F S16x256 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S16x256x3) hz3,
    View.ld_unit_zero (S := S16x256) hz2]

/-- At the last point of a row of tiles the running minima are updated in the same way, -/
theorem scratch_C (c : Dev nD) (i : grid0.Coords) (a2 : Memref sig .tc .vmem S16x256x3 .f32) (h2 : a2.IsWhole)
    (a3 : Memref sig .tc .vmem S16x256x3 .f32) (h3 : a3.IsWhole) (a4 : Memref sig .tc .vmem S16x256 .f32) (h4 : a4.IsWhole)
    (a5 : Memref sig .tc .vmem S16x256 .f32) (h5 : a5.IsWhole) (hc0 : ¬cond0_0 i) (hc1 : cond0_1 i)
    (x0 x1 : Vec F S16x256x3 .f32) (xs0 : Vec F S16x256 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S16x256x3) hz3,
    View.ld_unit_zero (S := S16x256) hz2]

/-- and the output block receives a copy of the updated minima. -/
theorem out_C (c : Dev nD) (i : grid0.Coords) (a2 : Memref sig .tc .vmem S16x256x3 .f32) (h2 : a2.IsWhole)
    (a3 : Memref sig .tc .vmem S16x256x3 .f32) (h3 : a3.IsWhole) (a4 : Memref sig .tc .vmem S16x256 .f32) (h4 : a4.IsWhole)
    (a5 : Memref sig .tc .vmem S16x256 .f32) (h5 : a5.IsWhole) (hc0 : ¬cond0_0 i) (hc1 : cond0_1 i)
    (x0 x1 : Vec F S16x256x3 .f32) (xs0 : Vec F S16x256 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz2]
  simp only [View.readCov_unit_zero (S := S16x256) _ hz2, View.readAt_eq_ld, h2.read_unread, h3.read_unread, h5.read_unread,
    View.ld_unit_zero (S := S16x256x3) hz3, View.ld_unit_zero (S := S16x256) hz2]

/-- At the first point of a row of tiles the minima are first reset, so the update is over the reset value. -/
theorem scratch_A (c : Dev nD) (i : grid0.Coords) (a2 : Memref sig .tc .vmem S16x256x3 .f32) (h2 : a2.IsWhole)
    (a3 : Memref sig .tc .vmem S16x256x3 .f32) (h3 : a3.IsWhole) (a4 : Memref sig .tc .vmem S16x256 .f32) (h4 : a4.IsWhole)
    (a5 : Memref sig .tc .vmem S16x256 .f32) (h5 : a5.IsWhole) (hc0 : cond0_0 i) (hc1 : ¬cond0_1 i)
    (x0 x1 : Vec F S16x256x3 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S16x256) hz2]
  simp only [View.readCov_unit_zero (S := S16x256) _ hz2, View.readAt_eq_ld, h2.read_unread, h3.read_unread,
    View.ld_unit_zero (S := S16x256x3) hz3]

end Cert.KernelIdeal.Pieces

end
-- ==== Proof.Spec.lean ====
/-
  The mathematics both programs compute, stated once over the extended reals and over no program.

  For two clouds of 4096 points in three coordinates per batch entry, the squared distance from point `n` of the first cloud to
  point `k` of the second is spelled by both programs as  |a|² + |b|² − 2·(a · b),  each of the three terms a sum over the
  three coordinates. The quantity of interest is, for each point of the first cloud, the minimum of that expression over all
  points of the second cloud, taken from the value +∞.

  A minimum taken from a fixed starting value over a finite index set is characterised by its lower bounds: `z` is below it
  exactly when `z` is below the starting value and below every term. That characterisation is all the later modules use of the
  minimum, so the starting value is never evaluated: it stays the word both programs write.

  After that minimum both programs apply one and the same scalar post-processing (a mean over the points, a weighted mean
  over the batch, a Euclidean-distance term over two further arrays, a fixed linear combination). It is written here once, as
  a function of the array of minima, so that the two sides meet on one term.
-/
import Idealize.ShloMosaic.PureOps
import Idealize.ShloMosaic.PureOps.Ideal
import Idealize.ShloMosaic.PureOps.Ideal.Laws
import Idealize.ShloMosaic.Lib.ValueIdx
import Mathlib.Data.Finset.Fold

noncomputable section

namespace Cert.Chamfer

open Idealize.ShloMosaic Idealize.ShloMosaic.ValueIdx

/-- A batch of sixteen clouds of 4096 points in three coordinates. -/
abbrev Cloud : Shape := ⟨3, ![16, 4096, 3]⟩
/-- One value per point of a cloud. -/
abbrev PerPoint : Shape := ⟨2, ![16, 4096]⟩
/-- The two further arrays: sixteen entries of eight groups of 512 points in three coordinates. -/
abbrev Groups : Shape := ⟨4, ![16, 8, 512, 3]⟩
/-- One value per batch entry. -/
abbrev PerBatch : Shape := ⟨1, ![16]⟩
/-- A single value. -/
abbrev One : Shape := ⟨0, ![]⟩

/-- The value every minimum starts from: the word of +∞, left unevaluated. -/
abbrev start : EReal := Ideal.ofBits .f32 0x7F800000#32
/-- The factor of the cross term: the word of 2, left unevaluated. -/
abbrev twice : EReal := Ideal.ofBits .f32 0x40000000#32

/-- |a|² + |b|² − 2·(a · b) for point `n` of `A` and point `k` of `B` in batch entry `b`, in the grouping both programs use. -/
def sqdist (A B : Cloud.Idx → EReal) (b : Fin 16) (n k : Fin 4096) : EReal :=
  ((∑ d : Fin 3, A (ix3 b n d) * A (ix3 b n d)) + (∑ d : Fin 3, B (ix3 b k d) * B (ix3 b k d)))
    - twice * (∑ d : Fin 3, A (ix3 b n d) * B (ix3 b k d))

/-- For each point of `A`: the minimum, from the starting value, of its squared distances to all points of `B`. -/
def nearest (A B : Cloud.Idx → EReal) : PerPoint.Idx → EReal :=
  fun j => (Finset.univ : Finset (Fin 4096)).fold min start (fun k => sqdist A B (j 0) (j 1) k)

/-- The lower bounds of that minimum: those of the starting value that are lower bounds of every term. -/
theorem le_nearest_iff (A B : Cloud.Idx → EReal) (j : PerPoint.Idx) (z : EReal) :
    z ≤ nearest A B j ↔ z ≤ start ∧ ∀ k : Fin 4096, z ≤ sqdist A B (j 0) (j 1) k := by
  unfold nearest
  rw [Finset.le_fold_min]
  simp only [Finset.mem_univ, forall_true_left]

/-- Two extended reals with the same lower bounds are equal. -/
theorem eq_of_same_lower_bounds {x y : EReal} (h : ∀ z : EReal, z ≤ x ↔ z ≤ y) : x = y :=
  le_antisymm ((h x).mp le_rfl) ((h y).mpr le_rfl)

/-- What both programs do with the array of minima `M`, the two further arrays and the weights: the mean of `M` over the points,
    times the weights, averaged over the batch and scaled by the fixed factor; plus the batch average of the weighted square
    root of (the sum of squared differences of the two further arrays, plus the fixed offset). The shape facts are the
    programs' own; whichever proofs are passed, the value is the same. -/
def post (h1 : PerPoint.ReducesTo [1] PerBatch) (h0 : 0 < One.numel)
    (hb : One.BroadcastsInDim PerBatch (![] : Fin 0 → Fin PerBatch.rank)) (h2 : PerBatch.ReducesTo [0] One)
    (hc : Groups.ShapeCasts Cloud) (h3 : Cloud.ReducesTo [1, 2] PerBatch)
    (M : FVec Ideal PerPoint .f32) (x2 x3 : FVec Ideal Groups .f32) (x4 : FVec Ideal PerBatch .f32) : FVec Ideal One .f32 :=
  addf
    (Host.divf
      (Host.reduceAdd
        (mulf
          (Host.sqrt
            (addf
              (Host.reduceAdd
                (mulf (subf (shapeCast Cloud x2 hc) (shapeCast Cloud x3 hc)) (subf (shapeCast Cloud x2 hc) (shapeCast Cloud x3 hc)))
                (constant (F := Ideal) One .f32 0x00000000#32) h3 h0)
              (broadcastInDim PerBatch ![] hb (constant (F := Ideal) One .f32 0x33D6BF95#32))))
          x4)
        (constant (F := Ideal) One .f32 0x00000000#32) h2 h0)
      (constant (F := Ideal) One .f32 0x41800000#32))
    (mulf (constant (F := Ideal) One .f32 0x3E4CCCCD#32)
      (Host.divf
        (Host.reduceAdd
          (mulf
            (Host.divf (Host.reduceAdd M (constant (F := Ideal) One .f32 0x00000000#32) h1 h0)
              (broadcastInDim PerBatch ![] hb (constant (F := Ideal) One .f32 0x45800000#32)))
            x4)
          (constant (F := Ideal) One .f32 0x00000000#32) h2 h0)
        (constant (F := Ideal) One .f32 0x41800000#32)))

end Cert.Chamfer

end
-- ==== Proof.TileValue.lean ====
/-
  One tile of the kernel's work, read at an entry.

  At a grid point the kernel holds a block `x0` of 256 points of the first cloud and a block `x1` of 256 points of the second
  (each for all sixteen batch entries) and the running minima `prev` of the block's 256 points. What it stores back is, at batch
  entry `b` and row `r`,

      min (prev b r) (the minimum, from +∞, over the 256 columns q of  |x0 b r|² + |x1 b q|² − 2·(x0 b r · x1 b q)).

  The three terms are read off the body's operations: the two sums of squares are lane sums over the three coordinates, laid
  along a column and along a row and broadcast to the 256 × 256 tile; the cross term is the batched matrix product of the two
  blocks contracted over the coordinate axis into a zero accumulator, the change of float format before it being the
  identity at the extended reals; the minimum over a tile row is the lane minimum from the word of +∞.
-/
import proofs.«115717_j24790551233440_1_alg».proof.Proof.Gen.KernelIdeal.Skeleton
import proofs.«115717_j24790551233440_1_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx Cert.Chamfer

/-- The tile's entry for row `r` of the first block and column `q` of the second, in batch entry `b`. -/
def tileSq (x0 x1 : FVec Ideal S16x256x3 .f32) (b : Fin 16) (r q : Fin 256) : EReal :=
  ((∑ d : Fin 3, x0 (ix3 b r d) * x0 (ix3 b r d)) + (∑ d : Fin 3, x1 (ix3 b q d) * x1 (ix3 b q d)))
    - twice * (∑ d : Fin 3, x0 (ix3 b r d) * x1 (ix3 b q d))

/-! ## The sums over the three coordinates -/

/-- Inserting coordinate `d` on the last axis of (b, r) gives (b, r, d). -/
theorem lift_coord (b : Fin 16) (r : Fin 256) (d : Fin 3) :
    reduces_S16x256x3_S16x256.lift (ix2 b r) d = ix3 b r d :=
  funext fun a => Fin.ext (by match a with | ⟨0, _⟩ => rfl | ⟨1, _⟩ => rfl | ⟨2, _⟩ => rfl)

/-- The lane sum of the squares of a block at (b, r) is the sum over the three coordinates of that point's squares. -/
theorem rowsq (x : FVec Ideal S16x256x3 .f32) (b : Fin 16) (r : Fin 256) :
    multiReduction .add [2] S16x256 (mulf x x) 0x00000000#32 reduces_S16x256x3_S16x256 (.inl rfl) rfl (ix2 b r)
      = ∑ d : Fin 3, x (ix3 b r d) * x (ix3 b r d) := by
  refine (Ideal.multiReduction_add_single (mulf x x) 0x00000000#32 reduces_S16x256x3_S16x256 (.inl rfl) rfl (ix2 b r)).trans ?_
  refine Finset.sum_congr rfl fun d _ => ?_
  exact congrArg (fun i => x i * x i) (lift_coord b r d)

/-! ## The cross term: a batched product contracted over the coordinate axis -/

theorem lhs_axis0 (i : S16x256x256.Idx) (q : dot_S16x256x3_S16x256x3_S16x256x256_2_2_1_1_0_0.contr.Idx) :
    (dot_S16x256x3_S16x256x3_S16x256x256_2_2_1_1_0_0.lhsIdx i q 0).val = (i 0).val := by
  unfold DotDims.lhsIdx
  rw [dif_pos (show (0 : Fin S16x256x3.rank) ∈ dot_S16x256x3_S16x256x3_S16x256x256_2_2_1_1_0_0.lhsBatch by decide)]
  rfl
theorem lhs_axis1 (i : S16x256x256.Idx) (q : dot_S16x256x3_S16x256x3_S16x256x256_2_2_1_1_0_0.contr.Idx) :
    (dot_S16x256x3_S16x256x3_S16x256x256_2_2_1_1_0_0.lhsIdx i q 1).val = (i 1).val := by
  unfold DotDims.lhsIdx
  rw [dif_neg (show ¬(1 : Fin S16x256x3.rank) ∈ dot_S16x256x3_S16x256x3_S16x256x256_2_2_1_1_0_0.lhsBatch by decide), dif_pos (show (1 : Fin S16x256x3.rank) ∈ dot_S16x256x3_S16x256x3_S16x256x256_2_2_1_1_0_0.lhsNonContracting by decide)]
  rfl
theorem lhs_axis2 (i : S16x256x256.Idx) (q : dot_S16x256x3_S16x256x3_S16x256x256_2_2_1_1_0_0.contr.Idx) :
    (dot_S16x256x3_S16x256x3_S16x256x256_2_2_1_1_0_0.lhsIdx i q 2).val = (q ⟨0, by decide⟩).val :=
  dot_S16x256x3_S16x256x3_S16x256x256_2_2_1_1_0_0.lhsIdx_val_of_single rfl i q
theorem rhs_axis0 (i : S16x256x256.Idx) (q : dot_S16x256x3_S16x256x3_S16x256x256_2_2_1_1_0_0.contr.Idx) :
    (dot_S16x256x3_S16x256x3_S16x256x256_2_2_1_1_0_0.rhsIdx i q 0).val = (i 0).val := by
  unfold DotDims.rhsIdx
  rw [dif_pos (show (0 : Fin S16x256x3.rank) ∈ dot_S16x256x3_S16x256x3_S16x256x256_2_2_1_1_0_0.rhsBatch by decide)]
  rfl
theorem rhs_axis1 (i : S16x256x256.Idx) (q : dot_S16x256x3_S16x256x3_S16x256x256_2_2_1_1_0_0.contr.Idx) :
    (dot_S16x256x3_S16x256x3_S16x256x256_2_2_1_1_0_0.rhsIdx i q 1).val = (i 2).val := by
  unfold DotDims.rhsIdx
  rw [dif_neg (show ¬(1 : Fin S16x256x3.rank) ∈ dot_S16x256x3_S16x256x3_S16x256x256_2_2_1_1_0_0.rhsBatch by decide), dif_pos (show (1 : Fin S16x256x3.rank) ∈ dot_S16x256x3_S16x256x3_S16x256x256_2_2_1_1_0_0.rhsNonContracting by decide)]
  rfl
theorem rhs_axis2 (i : S16x256x256.Idx) (q : dot_S16x256x3_S16x256x3_S16x256x256_2_2_1_1_0_0.contr.Idx) :
    (dot_S16x256x3_S16x256x3_S16x256x256_2_2_1_1_0_0.rhsIdx i q 2).val = (q ⟨0, by decide⟩).val :=
  dot_S16x256x3_S16x256x3_S16x256x256_2_2_1_1_0_0.rhsIdx_val_of_single rfl i q

/-- The product of two blocks into the zero accumulator, at (b, r, q): the sum over the three coordinates of the products of
    row `r` of the left block and row `q` of the right one, in batch entry `b`. -/
theorem cross (l r : FVec Ideal S16x256x3 .bf16) (b : Fin 16) (p q : Fin 256) :
    matmul dot_S16x256x3_S16x256x3_S16x256x256_2_2_1_1_0_0 none l r (constant (F := Ideal) S16x256x256 .f32 0x00000000#32) (ix3 b p q)
      = ∑ d : Fin 3, l (ix3 b p d) * r (ix3 b q d) := by
  refine (Ideal.matmul_constant_zero_apply dot_S16x256x3_S16x256x3_S16x256x256_2_2_1_1_0_0 none l r (ix3 b p q)).trans ?_
  rw [← Equiv.sum_comp (ValueIdx.contrEquiv1 dot_S16x256x3_S16x256x3_S16x256x256_2_2_1_1_0_0 3 rfl rfl).symm]
  refine Finset.sum_congr rfl fun k _ => ?_
  have hk := ValueIdx.contrEquiv1_symm_val dot_S16x256x3_S16x256x3_S16x256x256_2_2_1_1_0_0 3 rfl rfl k
  have el : dot_S16x256x3_S16x256x3_S16x256x256_2_2_1_1_0_0.lhsIdx (ix3 b p q) ((ValueIdx.contrEquiv1 dot_S16x256x3_S16x256x3_S16x256x256_2_2_1_1_0_0 3 rfl rfl).symm k) = ix3 b p k := funext fun a => Fin.ext (by
    match a with
    | ⟨0, _⟩ => exact lhs_axis0 _ _
    | ⟨1, _⟩ => exact lhs_axis1 _ _
    | ⟨2, _⟩ => exact (lhs_axis2 _ _).trans hk)
  have er : dot_S16x256x3_S16x256x3_S16x256x256_2_2_1_1_0_0.rhsIdx (ix3 b p q) ((ValueIdx.contrEquiv1 dot_S16x256x3_S16x256x3_S16x256x256_2_2_1_1_0_0 3 rfl rfl).symm k) = ix3 b q k := funext fun a => Fin.ext (by
    match a with
    | ⟨0, _⟩ => exact rhs_axis0 _ _
    | ⟨1, _⟩ => exact rhs_axis1 _ _
    | ⟨2, _⟩ => exact (rhs_axis2 _ _).trans hk)
  rw [el, er]

/-! ## A per-row value laid along a column, a per-row value laid along a row, each spread over the tile -/

/-- A value per (b, r), cast to a column and broadcast over the tile's columns, read at (b, r, q), is the value at (b, r). -/
theorem along_column (v : FVec Ideal S16x256 .f32) (b : Fin 16) (r q : Fin 256) :
    broadcastTo S16x256x256 (shapeCast S16x256x1 v shapeCasts_S16x256_S16x256x1) broadcasts_S16x256x1_S16x256x256 (ix3 b r q)
      = v (ix2 b r) := by
  refine (broadcastTo_apply _ broadcasts_S16x256x1_S16x256x256 (ix3 b r q) (ix3 b r (0 : Fin 1)) (fun a => match a with
    | ⟨0, _⟩ => by show b.val = if (16 : Nat) = 1 then 0 else b.val; rw [if_neg (by decide)]
    | ⟨1, _⟩ => by show r.val = if (256 : Nat) = 1 then 0 else r.val; rw [if_neg (by decide)]
    | ⟨2, _⟩ => by show 0 = if (1 : Nat) = 1 then 0 else q.val; rw [if_pos rfl])).trans ?_
  exact shapeCast_apply v shapeCasts_S16x256_S16x256x1 (ix3 b r (0 : Fin 1)) (ix2 b r)
    (by rewrite [Shape.rowMajor_val_two, Shape.rowMajor_val_three]; show b.val * 256 + r.val = (b.val * 256 + r.val) * 1 + 0; omega)

/-- A value per (b, q), cast to a row and broadcast over the tile's rows, read at (b, r, q), is the value at (b, q). -/
theorem along_row (v : FVec Ideal S16x256 .f32) (b : Fin 16) (r q : Fin 256) :
    broadcastTo S16x256x256 (shapeCast S16x1x256 v shapeCasts_S16x256_S16x1x256) broadcasts_S16x1x256_S16x256x256 (ix3 b r q)
      = v (ix2 b q) := by
  refine (broadcastTo_apply _ broadcasts_S16x1x256_S16x256x256 (ix3 b r q) (ix3 b (0 : Fin 1) q) (fun a => match a with
    | ⟨0, _⟩ => by show b.val = if (16 : Nat) = 1 then 0 else b.val; rw [if_neg (by decide)]
    | ⟨1, _⟩ => by show 0 = if (1 : Nat) = 1 then 0 else r.val; rw [if_pos rfl]
    | ⟨2, _⟩ => by show q.val = if (256 : Nat) = 1 then 0 else q.val; rw [if_neg (by decide)])).trans ?_
  exact shapeCast_apply v shapeCasts_S16x256_S16x1x256 (ix3 b (0 : Fin 1) q) (ix2 b q)
    (by rewrite [Shape.rowMajor_val_two, Shape.rowMajor_val_three]; show b.val * 256 + q.val = (b.val * 1 + 0) * 256 + q.val; omega)

/-! ## The minimum over a tile row -/

/-- Inserting column `q` on the last axis of (b, r) gives (b, r, q). -/
theorem lift_column (b : Fin 16) (r q : Fin 256) :
    reduces_S16x256x256_S16x256.lift (ix2 b r) q = ix3 b r q :=
  funext fun a => Fin.ext (by match a with | ⟨0, _⟩ => rfl | ⟨1, _⟩ => rfl | ⟨2, _⟩ => rfl)

/-- The lane minimum of a tile at (b, r), from the word of +∞, is the minimum from that value over the row's 256 columns. -/
theorem rowmin (v : FVec Ideal S16x256x256 .f32) (b : Fin 16) (r : Fin 256) :
    multiReduction .minimumf [2] S16x256 v 0x7F800000#32 reduces_S16x256x256_S16x256 (.inl rfl) rfl (ix2 b r)
      = (Finset.univ : Finset (Fin 256)).fold min start (fun q => v (ix3 b r q)) := by
  refine (multiReduction_minimumf_eq_fold v 0x7F800000#32 reduces_S16x256x256_S16x256 (.inl rfl) rfl (ix2 b r)).trans ?_
  refine (reduces_S16x256x256_S16x256.fold_filter_drop_single FloatOps.minimumf (FloatOps.ofBits .f32 0x7F800000#32) v (ix2 b r)).trans ?_
  exact congrArg (fun f => Finset.fold min start f (Finset.univ : Finset (Fin 256))) (funext fun q => congrArg v (lift_column b r q))

/-! ## The stored value at an entry -/

/-- What a grid point stores back into the running minima, at (b, r): the smaller of the previous minimum there and the
    minimum over the tile's row. -/
theorem stored_apply (x0 x1 : FVec Ideal S16x256x3 .f32) (prev : FVec Ideal S16x256 .f32) (b : Fin 16) (r : Fin 256) :
    k0_pay2 (F := Ideal) x0 x1 prev (ix2 b r)
      = min (prev (ix2 b r)) ((Finset.univ : Finset (Fin 256)).fold min start (fun q => tileSq x0 x1 b r q)) := by
  unfold k0_pay2
  refine (congrFun (shapeCast_self _ shapeCasts_S16x256_S16x256) (ix2 b r)).trans ?_
  refine congrArg (min (prev (ix2 b r))) ?_
  refine (rowmin _ b r).trans ?_
  refine congrArg (fun f => Finset.fold min start f (Finset.univ : Finset (Fin 256))) (funext fun q => ?_)
  unfold tileSq
  refine congrArg₂ (· - ·) (congrArg₂ (· + ·) ?_ ?_) (congrArg (twice * ·) ?_)
  · exact (along_column _ b r q).trans (rowsq x0 b r)
  · exact (along_row _ b r q).trans (rowsq x1 b q)
  · exact cross (truncf .bf16 x0 bitsLt_bf16_f32) (truncf .bf16 x1 bitsLt_bf16_f32) b r q

/-- The value the kernel resets the running minima to: the starting value everywhere. -/
theorem reset_apply (j : S16x256.Idx) : (k0_pay1 (F := Ideal)) j = start := by
  unfold k0_pay1
  exact congrFun (shapeCast_self _ shapeCasts_S16x256_S16x256) j

end Cert.KernelIdeal.Tile

end
-- ==== Proof.Running.lean ====
/-
  The running minima along a row of tiles.

  The grid has 16 × 16 points; point `n` works on block `n / 16` of the first cloud (256 of its points) and block `n % 16` of the
  second. Read through its window, row `r` of the first block is point `256 · (n / 16) + r` of the first cloud, and row `q` of the
  second block is point `256 · (n % 16) + q` of the second cloud; so the tile's entry (r, q) is the squared distance of the
  specification between those two points.

  By induction on the point, the minima the kernel carries after point `n` have, at (b, r), exactly these lower bounds: the
  lower bounds of the starting value that are lower bounds of the squared distances from point `256 · (n / 16) + r` to the
  first `256 · (n % 16 + 1)` points of the second cloud. The induction step is the stored value of the tile module: a
  minimum of the previous minima and the tile row's minimum, whose lower bounds are the common lower bounds of the two.
  At the first tile of a row the previous minima are the starting value; at a later tile the previous point belongs to the
  same row of tiles and has covered the columns before this tile's.
-/
import proofs.«115717_j24790551233440_1_alg».proof.Proof.Gen.KernelIdeal.Frame
import proofs.«115717_j24790551233440_1_alg».proof.Proof.Pieces
import proofs.«115717_j24790551233440_1_alg».proof.Proof.TileValue
import proofs.«115717_j24790551233440_1_alg».proof.Proof.Spec
import Idealize.ShloMosaic.Lib.Pipeline.Value
import Idealize.ShloMosaic.Lib.ValueIdx

set_option maxRecDepth 16384

noncomputable section

namespace Cert.KernelIdeal.Running

open Cert.KernelIdeal Cert.KernelIdeal.Gen Idealize.ShloMosaic Idealize.ShloMosaic.TcCoe Idealize.SL.Sem
open Idealize.ShloMosaic.ValueIdx Cert.Chamfer

variable (m : (ℓ : Loc nD τ sig) → Buf (Elt Ideal) ℓ)

/-- The two clouds as the region finds them, and the blocks of them a grid point holds. -/
abbrev cloudA (c : Dev nD) : FVec Ideal S16x4096x3 .f32 := V m c main_arg0
abbrev cloudB (c : Dev nD) : FVec Ideal S16x4096x3 .f32 := V m c main_arg1
abbrev blockA (c : Dev nD) (t : Fin cfg0.N) : FVec Ideal S16x256x3 .f32 := iblk m c 0 t
abbrev blockB (c : Dev nD) (t : Fin cfg0.N) : FVec Ideal S16x256x3 .f32 := iblk m c 1 t

/-- Row `r` of the first cloud's block at point `t`, as a point of the cloud. -/
def rowOf (t : Fin cfg0.N) (r : Fin 256) : Fin 4096 :=
  ⟨256 * (t.val / 16) + r.val, by have hN : cfg0.N = 256 := N_0; have := t.isLt; have := r.isLt; omega⟩
/-- Row `q` of the second cloud's block at point `t`, as a point of the cloud. -/
def colOf (t : Fin cfg0.N) (q : Fin 256) : Fin 4096 :=
  ⟨256 * (t.val % 16) + q.val, by have := q.isLt; omega⟩

/-- The windows' block indices over the grid: the first cloud's block follows the slow grid axis, the second cloud's the
    fast one; neither moves along the batch or the coordinate axis. -/
theorem index_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0 :=
  (by decide +kernel : ∀ t : Fin grid0.N, _)

theorem blockA_apply (c : Dev nD) (t : Fin cfg0.N) (b : Fin 16) (r : Fin 256) (d : Fin 3) :
    blockA m c t (ix3 b r d) = cloudA m c (ix3 b (rowOf t r) d) := by
  obtain ⟨e0, e1, e2, -, -, -⟩ := index_facts t
  show iblk m c 0 t (ix3 b r d) = _
  unfold iblk
  rw [View.read_apply]
  show V m c main_arg0 _ = V m c main_arg0 _
  congr 1
  funext a
  apply Fin.ext
  match a with
  | ⟨0, _⟩ => show win0_0.index t (0 : Fin 3) * 16 + 1 * b.val = b.val; rw [e0]; omega
  | ⟨1, _⟩ => show win0_0.index t (1 : Fin 3) * 256 + 1 * r.val = 256 * (t.val / 16) + r.val; rw [e1]; omega
  | ⟨2, _⟩ => show win0_0.index t (2 : Fin 3) * 3 + 1 * d.val = d.val; rw [e2]; omega

theorem blockB_apply (c : Dev nD) (t : Fin cfg0.N) (b : Fin 16) (q : Fin 256) (d : Fin 3) :
    blockB m c t (ix3 b q d) = cloudB m c (ix3 b (colOf t q) d) := by
  obtain ⟨-, -, -, e0, e1, e2⟩ := index_facts t
  show iblk m c 1 t (ix3 b q d) = _
  unfold iblk
  rw [View.read_apply]
  show V m c main_arg1 _ = V m c main_arg1 _
  congr 1
  funext a
  apply Fin.ext
  match a with
  | ⟨0, _⟩ => show win0_1.index t (0 : Fin 3) * 16 + 1 * b.val = b.val; rw [e0]; omega
  | ⟨1, _⟩ => show win0_1.index t (1 : Fin 3) * 256 + 1 * q.val = 256 * (t.val % 16) + q.val; rw [e1]; omega
  | ⟨2, _⟩ => show win0_1.index t (2 : Fin 3) * 3 + 1 * d.val = d.val; rw [e2]; omega

/-- The tile's entry (r, q) at point `t` is the squared distance between the two cloud points the rows stand for. -/
theorem tile_eq (c : Dev nD) (t : Fin cfg0.N) (b : Fin 16) (r q : Fin 256) :
    Tile.tileSq (blockA m c t) (blockB m c t) b r q = sqdist (cloudA m c) (cloudB m c) b (rowOf t r) (colOf t q) := by
  unfold Tile.tileSq sqdist
  refine congrArg₂ (· - ·) (congrArg₂ (· + ·) ?_ ?_) (congrArg (twice * ·) ?_)
  · exact Finset.sum_congr rfl fun d _ => congrArg₂ (· * ·) (blockA_apply m c t b r d) (blockA_apply m c t b r d)
  · exact Finset.sum_congr rfl fun d _ => congrArg₂ (· * ·) (blockB_apply m c t b q d) (blockB_apply m c t b q d)
  · exact Finset.sum_congr rfl fun d _ => congrArg₂ (· * ·) (blockA_apply m c t b r d) (blockB_apply m c t b q d)

/-- The minima the kernel carries after point `n`. -/
abbrev carried (c : Dev nD) (n : ℕ) (h : n < cfg0.N) : FVec Ideal S16x256 .f32 := (outsAt0 m c n h).2

/-- At the first tile of a row: the update of the reset value. -/
theorem carried_first (c : Dev nD) (t : Fin cfg0.N) (h0 : t.val % 16 = 0) :
    carried m c t.val t.isLt = k0_pay2 (blockA m c t) (blockB m c t) (k0_pay1 (F := Ideal)) := by
  have h1 : ¬t.val % 16 = 15 := by omega
  show (outsAt0 m c t.val t.isLt).2 = _
  rw [outsAt0_A m c t h0 h1]
  dsimp only
  exact Pieces.scratch_A (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- At a later tile: the update of what the point before left. -/
theorem carried_next (c : Dev nD) (t : Fin cfg0.N) (h0 : ¬t.val % 16 = 0) :
    carried m c t.val t.isLt
      = k0_pay2 (blockA m c t) (blockB m c t) (carried m c (t.val - 1) (Nat.lt_of_le_of_lt (Nat.sub_le _ _) t.isLt)) := by
  by_cases h1 : t.val % 16 = 15
  · show (outsAt0 m c t.val t.isLt).2 = _
    rw [outsAt0_C m c t h0 h1]
    dsimp only
    exact Pieces.scratch_C (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · show (outsAt0 m c t.val t.isLt).2 = _
    rw [outsAt0_B m c t h0 h1]
    dsimp only
    exact Pieces.scratch_B (F := Ideal) c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At the last tile of a row the output block holds the carried minima. -/
theorem output_last (c : Dev nD) (t : Fin cfg0.N) (h1 : t.val % 16 = 15) :
    (outsAt0 m c t.val t.isLt).1 = carried m c t.val t.isLt := by
  have h0 : ¬t.val % 16 = 0 := by omega
  show (outsAt0 m c t.val t.isLt).1 = (outsAt0 m c t.val t.isLt).2
  rw [outsAt0_C m c t h0 h1]
  dsimp only
  exact (Pieces.out_C (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (Pieces.scratch_C (F := Ideal) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

/-- The lower bounds of a stored value: those of the previous minimum, of the starting value and of every tile entry of the row. -/
theorem le_stored_iff (x0 x1 : FVec Ideal S16x256x3 .f32) (prev : FVec Ideal S16x256 .f32) (b : Fin 16) (r : Fin 256) (z : EReal) :
    z ≤ k0_pay2 (F := Ideal) x0 x1 prev (ix2 b r)
      ↔ z ≤ prev (ix2 b r) ∧ z ≤ start ∧ ∀ q : Fin 256, z ≤ Tile.tileSq x0 x1 b r q := by
  rw [Tile.stored_apply, le_min_iff, Finset.le_fold_min]
  simp only [Finset.mem_univ, forall_true_left]

/-- The points of the second cloud before column block `j + 1` are those before column block `j` and the 256 of block `j`. -/
theorem forall_cols_succ (P : Fin 4096 → Prop) (j : ℕ) (hj : j < 16) :
    (∀ k : Fin 4096, k.val < 256 * (j + 1) → P k)
      ↔ (∀ k : Fin 4096, k.val < 256 * j → P k) ∧ ∀ q : Fin 256, P ⟨256 * j + q.val, by have := q.isLt; omega⟩ := by
  constructor
  · intro H
    exact ⟨fun k hk => H k (by omega), fun q => H _ (by have := q.isLt; show 256 * j + q.val < 256 * (j + 1); omega)⟩
  · rintro ⟨H1, H2⟩ k hk
    by_cases hk' : k.val < 256 * j
    · exact H1 k hk'
    · have e : k = ⟨256 * j + (k.val - 256 * j), by omega⟩ := Fin.ext (by show k.val = 256 * j + (k.val - 256 * j); omega)
      rw [e]
      exact H2 ⟨k.val - 256 * j, by omega⟩

/-- THE INVARIANT: the lower bounds of the carried minima after point `n`, at (b, r). -/
theorem carried_bounds (c : Dev nD) (n : ℕ) : ∀ (h : n < cfg0.N) (b : Fin 16) (r : Fin 256) (z : EReal),
    z ≤ carried m c n h (ix2 b r)
      ↔ z ≤ start ∧ ∀ k : Fin 4096, k.val < 256 * (n % 16 + 1) → z ≤ sqdist (cloudA m c) (cloudB m c) b (rowOf ⟨n, h⟩ r) k := by
  induction n using Nat.strong_induction_on with
  | _ n ih =>
    intro h b r z
    have hN : cfg0.N = 256 := N_0
    refine Iff.trans ?_ (and_congr_right' (forall_cols_succ (fun k => z ≤ sqdist (cloudA m c) (cloudB m c) b (rowOf ⟨n, h⟩ r) k) (n % 16) (by omega)).symm)
    by_cases h0 : n % 16 = 0
    · rw [show carried m c n h = _ from carried_first m c ⟨n, h⟩ h0, le_stored_iff, Tile.reset_apply]
      simp only [tile_eq]
      constructor
      · rintro ⟨a, -, H⟩
        exact ⟨a, fun k hk => absurd hk (by omega), H⟩
      · rintro ⟨a, -, H⟩
        exact ⟨a, a, H⟩
    · rw [show carried m c n h = _ from carried_next m c ⟨n, h⟩ h0, le_stored_iff]
      simp only [tile_eq]
      have hp := ih (n - 1) (by omega) (by omega) b r z
      have erow : rowOf ⟨n - 1, by omega⟩ r = rowOf ⟨n, h⟩ r := Fin.ext (by show 256 * ((n - 1) / 16) + r.val = 256 * (n / 16) + r.val; omega)
      rw [erow] at hp
      constructor
      · rintro ⟨hprev, a, H⟩
        exact ⟨a, fun k hk => (hp.mp hprev).2 k (by omega), H⟩
      · rintro ⟨a, H1, H⟩
        exact ⟨hp.mpr ⟨a, fun k hk => H1 k (by omega)⟩, a, H⟩

end Cert.KernelIdeal.Running

end
-- ==== Proof.Result.lean ====
/-
  The kernel's result.

  The output array is written back only at the last tile of each row of tiles, block `n / 16` at point `n`; those sixteen
  blocks tile the array, and what is written back is the carried minima after that point. Their lower bounds at (b, r) are,
  by the invariant at the last tile, the lower bounds of the starting value that bound the squared distances to ALL 4096
  points of the second cloud: the lower bounds of the specification's minimum at (b, 256 · (n / 16) + r). Two extended reals
  with the same lower bounds are equal, so the output array ends holding the specification's minima.

  The host operations after the region then compute the common post-processing of that array, of the two further arrays and
  of the weights, none of which the region or the tail overwrites.
-/
import proofs.«115717_j24790551233440_1_alg».proof.Proof.Running
import Idealize.ShloMosaic.Lib.StableHlo.Run
import Idealize.ShloMosaic.Lib.Tactic

set_option maxRecDepth 16384

noncomputable section

namespace Cert.KernelIdeal.Result

open Cert.KernelIdeal Cert.KernelIdeal.Gen Cert.KernelIdeal.Running Idealize.ShloMosaic Idealize.ShloMosaic.TcCoe Idealize.SL.Sem
open Idealize.ShloMosaic.ValueIdx Cert.Chamfer
open Idealize.ShloMosaic.Pipeline (Dat)

variable (m : (ℓ : Loc nD τ sig) → Buf (Elt Ideal) ℓ) (ρ : Dev nD → PrngReg)

/-- The specification's minima of the two clouds as the region finds them, as contents of the output array. -/
abbrev minima (c : Dev nD) : Buf (Elt Ideal) ((c : Thread nD τ).loc main_v0) := nearest (cloudA m c) (cloudB m c)

/-- The output window's block index: block `n / 16` along the points, none along the batch. -/
theorem index_out : ∀ t : Fin cfg0.N, win0_2.index t (0 : Fin 2) = 0 ∧ win0_2.index t (1 : Fin 2) = t.val / 16 :=
  (by decide +kernel : ∀ t : Fin grid0.N, _)

/-- After the last tile of a row of tiles the carried minima are the specification's minima of the block's points. -/
theorem carried_last (c : Dev nD) (t : Fin cfg0.N) (h1 : t.val % 16 = 15) (b : Fin 16) (r : Fin 256) :
    carried m c t.val t.isLt (ix2 b r) = nearest (cloudA m c) (cloudB m c) (ix2 b (rowOf t r)) := by
  refine eq_of_same_lower_bounds fun z => ?_
  rw [carried_bounds m c t.val t.isLt b r z, le_nearest_iff]
  exact and_congr_right' ⟨fun H k => H k (by have := k.isLt; omega), fun H k _ => H k⟩

/-- What a writing-back point writes back is its block of the specification's minima. -/
theorem flushed_eq (c : Dev nD) (t : Fin cfg0.N) (hf : (cfg0.win 2).flush t = true) :
    (dats m 0 c).flushed 2 t = ((cfg0.win 2).blk t).view.read (Elt Ideal) (minima m c) := by
  have h1 : t.val % 16 = 15 := (flush0_2 t).mp hf
  obtain ⟨e0, e1⟩ := index_out t
  show (cfg0.win 2).cut (grid0.coords t) ((dats m 0 c).after 2 t) = _
  rw [after0_2, output_last m c t h1]
  funext j
  show carried m c t.val t.isLt j = nearest (cloudA m c) (cloudB m c) (((cfg0.win 2).blk t).view.emb j)
  have hemb : ((cfg0.win 2).blk t).view.emb j = ix2 (j 0) (rowOf t (j 1)) := funext fun a => Fin.ext (by
    match a with
    | ⟨0, _⟩ => show win0_2.index t (0 : Fin 2) * 16 + 1 * (j 0).val = (j 0).val; rw [e0]; omega
    | ⟨1, _⟩ => show win0_2.index t (1 : Fin 2) * 256 + 1 * (j 1).val = 256 * (t.val / 16) + (j 1).val; rw [e1]; omega)
  rw [hemb]
  exact (congrArg (carried m c t.val t.isLt) (eq_ix2 (n0 := 16) (n1 := 256) j)).trans (carried_last m c t h1 (j 0) (j 1))

/-- An index of the array is in point `t`'s block iff each coordinate is in the block's range on its axis. -/
theorem mem_blk (t : Fin cfg0.N) (i : S16x4096.Idx) :
    i ∈ ((cfg0.win 2).blk t).view.set ↔ ∀ a : Fin 2, win0_2.index t a * S16x256.size a ≤ (i a).val ∧ (i a).val < win0_2.index t a * S16x256.size a + S16x256.size a := by
  show i ∈ ((View.whole main_v0).slice (win0_2.rect t)).set ↔ _
  rw [View.set_slice_whole, Rect.mem_set_unit]
  exact Iff.rfl

/-- Every index of the array lies in the block written back at the last tile of its row of tiles. -/
theorem covered (i : S16x4096.Idx) : ∃ t : Fin cfg0.N, (cfg0.win 2).flush t = true ∧ i ∈ ((cfg0.win 2).blk t).view.set := by
  have hN : cfg0.N = 256 := N_0
  have hi0 : (i 0).val < 16 := (i 0).isLt
  have hi1 : (i 1).val < 4096 := (i 1).isLt
  have ht : 16 * ((i 1).val / 256) + 15 < cfg0.N := by omega
  obtain ⟨e0, e1⟩ := index_out ⟨16 * ((i 1).val / 256) + 15, ht⟩
  refine ⟨⟨16 * ((i 1).val / 256) + 15, ht⟩, (flush0_2 _).mpr (by show (16 * ((i 1).val / 256) + 15) % 16 = 15; omega), ?_⟩
  rw [mem_blk]
  intro a
  match a with
  | ⟨0, _⟩ =>
    show win0_2.index ⟨16 * ((i 1).val / 256) + 15, ht⟩ (0 : Fin 2) * 16 ≤ (i 0).val ∧ (i 0).val < win0_2.index ⟨16 * ((i 1).val / 256) + 15, ht⟩ (0 : Fin 2) * 16 + 16
    rw [e0]; omega
  | ⟨1, _⟩ =>
    show win0_2.index ⟨16 * ((i 1).val / 256) + 15, ht⟩ (1 : Fin 2) * 256 ≤ (i 1).val ∧ (i 1).val < win0_2.index ⟨16 * ((i 1).val / 256) + 15, ht⟩ (1 : Fin 2) * 256 + 256
    rw [e1]
    show (16 * ((i 1).val / 256) + 15) / 16 * 256 ≤ (i 1).val ∧ (i 1).val < (16 * ((i 1).val / 256) + 15) / 16 * 256 + 256
    omega

/-- So the output array ends holding the specification's minima. -/
theorem final (c : Dev nD) : (dats m 0 c).arrAt 2 cfg0.N = minima m c :=
  (dats m 0 c).arrAt_eq_of_cover 2 (minima m c) (flushed_eq m c) covered

/-- The program's result: the common post-processing of the minima, the two further arrays and the weights at launch. -/
abbrev result (c : Dev nD) : Buf (Elt Ideal) ((c : Thread nD τ).loc main_v19) :=
  post reducesTo_S16x4096_S16_d1 h_S_ bcast_S_S16 reducesTo_S16_S_d0 shapeCasts_S16x8x512x3_S16x4096x3 reducesTo_S16x4096x3_S16_d1_2
    (minima m c) (m ((c : Thread nD τ).loc main_arg2)) (m ((c : Thread nD τ).loc main_arg3)) (m ((c : Thread nD τ).loc main_arg4))

/-- The host operations after the region leave that value in the result buffer. -/
theorem tail_eq (c : Dev nD) :
    Pipeline.afterTail₀ cfgs (dats m) 0 (V0 m) [hostOps1] c main_v19 = result m c := by
  unfold Pipeline.afterTail₀
  show StableHlo.after hostOps1 _ (Proc.devRef .tc main_v19) = _
  after_results
  have e0 : Pipeline.withArrays (cfgs 0).spec c (V0 m c) (fun w => (dats m 0 c).arrAt w (cfgs 0).N) (Proc.devRef .tc main_v0) = minima m c :=
    (Pipeline.withArrays_arr spec0 launch0.win.arr_inj c _ _ 2).trans (final m c)
  have e2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  have e4 : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  rw [e0, e2, e3, e4]
  rfl

/-- THE RUN, READ: every weakly fair execution ends with the result buffer at the common post-processing of the specification's
    minima, and the five argument arrays as launched. -/
theorem run : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v19 (Pipeline.mem_restRefs_of main_v19 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference's value.

  The reference forms, for all pairs of points at once, the array  |a|² + |b|² − 2·(a · b)  over (batch, point of the first
  cloud, point of the second cloud) and reduces it with a minimum over the last axis from the value +∞. Read at (b, n, k) the
  array is the specification's squared distance: the two sums of squares are sums over the coordinate axis (from a zero
  initial value), broadcast along a column and along a row; the cross term is the batched contraction over the coordinate
  axis. A reduction over one axis with a commutative and associative body is the fold over that axis's coordinates, so the
  reduced array is the specification's minima, and the rest of the program is the common post-processing of it.
-/
import proofs.«115717_j24790551233440_1_alg».proof.Proof.Gen.ReferenceIdeal.Read
import proofs.«115717_j24790551233440_1_alg».proof.Proof.Spec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Chamfer

/-- The pairwise array reduces over its last axis to one value per point of the first cloud. -/
theorem reduces_last : S16x4096x4096.Reduces [2] S16x4096 := by decide

/-- Inserting `k` on the last axis of (b, n) gives (b, n, k). -/
theorem lift_last (b : Fin 16) (n k : Fin 4096) : reduces_last.lift (ix2 b n) k = ix3 b n k :=
  funext fun a => Fin.ext (by match a with | ⟨0, _⟩ => rfl | ⟨1, _⟩ => rfl | ⟨2, _⟩ => rfl)

/-- The pairwise array at (b, n, k) is the squared distance of the specification. -/
theorem pairwise_apply (x0 x1 : (⟨S16x4096x3, .f32⟩ : BufTy).Contents (Elt Ideal)) (b : Fin 16) (n k : Fin 4096) :
    val_main_v12 (F := Ideal) x0 x1 (ix3 b n k) = sqdist x0 x1 b n k := by
  unfold sqdist
  show (val_main_v7 (F := Ideal) x0 (ix3 b n k) + val_main_v8 (F := Ideal) x1 (ix3 b n k))
      - (val_main_v10 (F := Ideal) (ix3 b n k) * val_main_v4 (F := Ideal) x0 x1 (ix3 b n k)) = _
  refine congrArg₂ (· - ·) (congrArg₂ (· + ·) ?_ ?_) (congrArg₂ (· * ·) ?_ ?_)
  · rw [val_main_v7_apply, val_main_v5_apply, val_main_v1_apply]
    show Ideal.ofBits .f32 0x00000000#32 + ∑ d : Fin 3, x0 (idx_main_v1 (idx_main_v5 (idx_main_v7 (ix3 b n k))) d) * x0 (idx_main_v1 (idx_main_v5 (idx_main_v7 (ix3 b n k))) d) = _
    rw [Ideal.ofBits_zero_f32, zero_add]
    refine Finset.sum_congr rfl fun d _ => ?_
    have e : idx_main_v1 (idx_main_v5 (idx_main_v7 (ix3 b n k))) d = ix3 b n d :=
      funext fun a => Fin.ext (by match a with | ⟨0, _⟩ => rfl | ⟨1, _⟩ => rfl | ⟨2, _⟩ => rfl)
    rw [e]
  · rw [val_main_v8_apply, val_main_v6_apply, val_main_v3_apply]
    show Ideal.ofBits .f32 0x00000000#32 + ∑ d : Fin 3, x1 (idx_main_v3 (idx_main_v6 (idx_main_v8 (ix3 b n k))) d) * x1 (idx_main_v3 (idx_main_v6 (idx_main_v8 (ix3 b n k))) d) = _
    rw [Ideal.ofBits_zero_f32, zero_add]
    refine Finset.sum_congr rfl fun d _ => ?_
    have e : idx_main_v3 (idx_main_v6 (idx_main_v8 (ix3 b n k))) d = ix3 b k d :=
      funext fun a => Fin.ext (by match a with | ⟨0, _⟩ => rfl | ⟨1, _⟩ => rfl | ⟨2, _⟩ => rfl)
    rw [e]
  · rw [val_main_v10_apply]
    rfl
  · rw [val_main_v4_apply]
    refine Finset.sum_congr rfl fun d _ => ?_
    have el : lidx_main_v4 (ix3 b n k) d = ix3 b n d :=
      funext fun a => Fin.ext (by match a with | ⟨0, _⟩ => rfl | ⟨1, _⟩ => rfl | ⟨2, _⟩ => rfl)
    have er : ridx_main_v4 (ix3 b n k) d = ix3 b k d :=
      funext fun a => Fin.ext (by match a with | ⟨0, _⟩ => rfl | ⟨1, _⟩ => rfl | ⟨2, _⟩ => rfl)
    rw [el, er]

/-- The reduced array is the specification's minima. -/
theorem reduced_eq (x0 x1 : (⟨S16x4096x3, .f32⟩ : BufTy).Contents (Elt Ideal)) :
    val_main_v13 (F := Ideal) x0 x1 = nearest x0 x1 := by
  funext j
  obtain ⟨b, n, rfl⟩ : ∃ (b : Fin 16) (n : Fin 4096), j = ix2 b n := ⟨j 0, j 1, eq_ix2 j⟩
  have key : Host.reduce (FloatOps.minimumf (F := Ideal) (φ := .f32)) (val_main_v12 (F := Ideal) x0 x1) (val_main_cst_2 (F := Ideal)) reducesTo_S16x4096x4096_S16x4096_d2 h_S_ (ix2 b n)
      = (Finset.univ : Finset (Fin 4096)).fold min start (val_main_v12 (F := Ideal) x0 x1 ∘ reduces_last.lift (ix2 b n)) :=
    Host.reduce_eq_fold_single (α := Ideal .f32) FloatOps.minimumf _ _ reducesTo_S16x4096x4096_S16x4096_d2 reduces_last h_S_ (ix2 b n)
  have step : (val_main_v12 (F := Ideal) x0 x1 ∘ reduces_last.lift (ix2 b n)) = fun k : Fin 4096 => sqdist x0 x1 b n k :=
    funext fun k => (congrArg (val_main_v12 (F := Ideal) x0 x1) (lift_last b n k)).trans (pairwise_apply x0 x1 b n k)
  unfold val_main_v13
  refine key.trans ?_
  rw [step]
  rfl

/-- The program's whole term is the common post-processing of the specification's minima. -/
theorem result_eq (x0 x1 : (⟨S16x4096x3, .f32⟩ : BufTy).Contents (Elt Ideal)) (x2 x3 : (⟨S16x8x512x3, .f32⟩ : BufTy).Contents (Elt Ideal))
    (x4 : (⟨S16, .f32⟩ : BufTy).Contents (Elt Ideal)) :
    val_main_v32 (F := Ideal) x0 x1 x2 x3 x4
      = post reducesTo_S16x4096_S16_d1 h_S_ bcast_S_S16 reducesTo_S16_S_d0 shapeCasts_S16x8x512x3_S16x4096x3 reducesTo_S16x4096x3_S16_d1_2
          (nearest x0 x1) x2 x3 x4 := by
  rw [← reduced_eq]
  rfl

end Cert.ReferenceIdeal.RefValue

end
-- ==== Proof.lean ====
/-
  The certificate: a blocked nearest-point kernel against its whole-array reference, over the extended reals.

  Both programs compute, for sixteen pairs of clouds of 4096 points in three coordinates, the squared distance
  |a|² + |b|² − 2·(a · b) from every point of the first cloud to every point of the second, take for each point of the first
  cloud the minimum over the second cloud starting from +∞, and post-process the array of minima together with two further
  arrays and a vector of weights into one number. The reference forms all 4096 × 4096 distances per batch entry and reduces
  once. The kernel sweeps 256 × 256 tiles, keeping the running minima of a block of 256 points while it moves along the second
  cloud, and writes a block of minima out after its last tile.

  The two agree because a minimum does not depend on how its terms are grouped: a value lies below the minimum of a family
  exactly when it lies below the starting value and below every member, whether the family is met in sixteen groups of 256 or
  all at once. No term is evaluated and no finiteness is used: the sums of squares and the cross term are the same
  expressions of the same entries on both sides (a change of float format before the kernel's matrix product is the identity
  at the extended reals), and the post-processing is one and the same function of the minima.

  The three frames are the kernels' generated frames and the reference's generated run with its result dropped; the
  idealized kernel is the kernel's own text read at the extended reals, so nothing is owed for the idealization.
-/
import proofs.«115717_j24790551233440_1_alg».proof.Defs
import proofs.«115717_j24790551233440_1_alg».proof.Proof.Gen.Kernel
import proofs.«115717_j24790551233440_1_alg».proof.Proof.Gen.Kernel.Skeleton
import proofs.«115717_j24790551233440_1_alg».proof.Proof.Gen.Kernel.Launch
import proofs.«115717_j24790551233440_1_alg».proof.Proof.Gen.Kernel.Points
import proofs.«115717_j24790551233440_1_alg».proof.Proof.Gen.Kernel.Frame
import proofs.«115717_j24790551233440_1_alg».proof.Proof.Gen.KernelIdeal
import proofs.«115717_j24790551233440_1_alg».proof.Proof.Gen.KernelIdeal.Skeleton
import proofs.«115717_j24790551233440_1_alg».proof.Proof.Gen.KernelIdeal.Launch
import proofs.«115717_j24790551233440_1_alg».proof.Proof.Gen.KernelIdeal.Points
import proofs.«115717_j24790551233440_1_alg».proof.Proof.Gen.KernelIdeal.Frame
import proofs.«115717_j24790551233440_1_alg».proof.Proof.Gen.ReferenceIdeal
import proofs.«115717_j24790551233440_1_alg».proof.Proof.Gen.Pre_finite_inputs
import proofs.«115717_j24790551233440_1_alg».proof.Proof.Gen.ReferenceIdeal.Run
import proofs.«115717_j24790551233440_1_alg».proof.Proof.Gen.ReferenceIdeal.Read
import proofs.«115717_j24790551233440_1_alg».proof.Proof.Result
import proofs.«115717_j24790551233440_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the common post-processing of the specification's minima of clouds that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
